-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn_part1 {F : FTy → Type} [FloatOps F] (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S16384x1024 .f32) (main_arg3 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_v13 main_v16
-- ==== Kernel.lean ====
abbrev S16384x1024 : Shape := ⟨2, ![16384, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S1x1, .f32⟩
  | .hbm, ⟨5, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1, .f32⟩
  | .local _ .vmem, ⟨9, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v33 : BitVec 1 := Scalar.cmpi .eq arg0 c31_i32
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .f32 = 32 ∨ (Rect.block (s := S16384x1024) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.Pieces.lean ====
/-
  What one step of the blockwise accumulation leaves behind, read as values.

  The body keeps a one-element running total. On the first block it clears the total and adds the block's sum to the
  cleared value; on every later block it adds the block's sum to what the step before left; on the last block it
  also writes the total, scaled, into the one-element result. Each of these is a single covering store of the
  one-element buffer, so what the buffer holds afterwards is that store's value:
    first block   : total = step(blocks, zero)
    later blocks  : total = step(blocks, previous total)
    last block    : result = scale(total after this step).
  Here step is the body's accumulating expression and scale its final multiplication, both as functions of the four
  loaded blocks and the previous total.
-/
import proofs.«148107_j24172075941906_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KL

open Cert.KernelIdeal Cert.KernelIdeal.Gen

variable {F : FTy → Type} [FloatOps F]

theorem hz : (![0, 0] : Fin 2 → Nat) = fun _ => 0 := funext fun a => by fin_cases a <;> rfl

/-- At the first grid point the body clears the running total, reads the cleared value back and adds this block's
    sum to it: the scratch is left at the accumulating store's value over the cleared total. -/
theorem scratch_first (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc0 : cond0_0 i) (hc1 : ¬cond0_1 i) (x0 x1 x2 x3 : Vec F S512x1024 .f32) :
    sout0_A_0 c i a1 h1 a2 h2 a3 h3 a4 h4 a5 h5 a6 h6 hc0 hc1 x0 x1 x2 x3 = k0_pay3 x0 x1 x2 x3 (k0_pay2 (F := F)) := by
  unfold sout0_A_0
  rw [View.read_writes_eq_canon _ _ _ (scover0_A_0 c i a1 h1 a2 h2 a3 h3 a4 h4 a5 h5 a6 h6 hc0 hc1 x0 x1 x2 x3)]
  unfold kernelRun0_A
  dsimp only
  sl_unfold_words
  rw [View.canon_cons_unit_zero (S := S1x1) hz]
  simp only [View.readAt_eq_ld, h1.read_unread, h2.read_unread, h3.read_unread, h4.read_unread, h6.read_unread, View.ld_unit_zero (S := S512x1024) hz, View.ld_unit_zero (S := S1x1) hz, View.readCov_unit_zero (S := S1x1) _ hz]

/-- At a middle grid point the body adds this block's sum to the running total the point before left. -/
theorem scratch_middle (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc0 : ¬cond0_0 i) (hc1 : ¬cond0_1 i) (x0 x1 x2 x3 : Vec F S512x1024 .f32) (xs : Vec F S1x1 .f32) :
    sout0_B_0 c i a1 h1 a2 h2 a3 h3 a4 h4 a5 h5 a6 h6 hc0 hc1 x0 x1 x2 x3 xs = k0_pay3 x0 x1 x2 x3 xs := by
  unfold sout0_B_0
  rw [View.read_writes_eq_canon _ _ _ (scover0_B_0 c i a1 h1 a2 h2 a3 h3 a4 h4 a5 h5 a6 h6 hc0 hc1 x0 x1 x2 x3 xs)]
  unfold kernelRun0_B
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1) hz, View.readCov_unit_zero (S := S1x1) _ hz]

/-- At the last grid point the running total is updated the same way, -/
theorem scratch_last (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S512x1024 .f32) (xs : Vec F S1x1 .f32) :
    sout0_C_0 c i a1 h1 a2 h2 a3 h3 a4 h4 a5 h5 a6 h6 hc0 hc1 x0 x1 x2 x3 xs = k0_pay3 x0 x1 x2 x3 xs := by
  unfold sout0_C_0
  rw [View.read_writes_eq_canon _ _ _ (scover0_C_0 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1) hz, View.readCov_unit_zero (S := S1x1) _ hz]

/-- and the output block receives the scaled total: the scaling applied to the value just stored in the scratch. -/
theorem out_last (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S1x1 .f32) (h5 : a5.IsWhole) (a6 : Memref sig .tc .vmem S1x1 .f32) (h6 : a6.IsWhole) (hc0 : ¬cond0_0 i) (hc1 : cond0_1 i) (x0 x1 x2 x3 : Vec F S512x1024 .f32) (xs : Vec F S1x1 .f32) :
    out0_C_4 c i a1 h1 a2 h2 a3 h3 a4 h4 a5 h5 a6 h6 hc0 hc1 x0 x1 x2 x3 xs = k0_pay1 (k0_pay3 x0 x1 x2 x3 xs) := by
  unfold out0_C_4
  rw [View.read_writes_eq_canon _ _ _ (cover0_C_4 c i a1 h1 a2 h2 a3 h3 a4 h4 a5 h5 a6 h6 hc0 hc1 x0 x1 x2 x3 xs)]
  unfold kernelRun0_C
  dsimp only
  sl_unfold_words
  rw [View.canon_unit_zero hz]
  simp only [View.readAt_eq_ld, h1.read_unread, h2.read_unread, h3.read_unread, h4.read_unread, h6.read_unread, View.ld_unit_zero (S := S512x1024) hz, View.ld_unit_zero (S := S1x1) hz, View.readCov_unit_zero (S := S1x1) _ hz]

end Cert.KernelIdeal.KL
end
-- ==== Proof.Chain.lean ====
/-
  The blockwise accumulation over the whole grid, and what the program returns.

  total n  is the one-element running total after block n:  total 0 = step(block 0, zero),
  total (n+1) = step(block n+1, total n).  By induction on the block this is what the generated frame's recursion
  says the scratch holds after each point. The one-element result array is written once, after the last block, with
  scale(total 31); its single block is the whole array, so that is what the array holds after the run. The
  program's value is that array recast from shape [1, 1] to a scalar.
-/
import proofs.«148107_j24172075941906_1_alg».proof.Proof.Pieces
import Idealize.ShloMosaic.Lib.StableHlo.Run

noncomputable section

open Idealize.ShloMosaic Idealize.ShloMosaic.TcCoe Idealize.SL.Sem
open Idealize.ShloMosaic.Pipeline (Dat)

namespace Cert.KernelIdeal.KL

open Cert.KernelIdeal Cert.KernelIdeal.Gen

variable {F : FTy → Type} [FloatOps F]
variable (m : (ℓ : Loc nD τ sig) → Buf (Elt F) ℓ) (ρ : Dev nD → PrngReg)

/-- The running total after block n. -/
def total (c : Dev nD) : (n : ℕ) → n < cfg0.N → Vec F S1x1 .f32
  | 0, h => k0_pay3 (iblk m c 0 ⟨0, h⟩) (iblk m c 1 ⟨0, h⟩) (iblk m c 2 ⟨0, h⟩) (iblk m c 3 ⟨0, h⟩) (k0_pay2 (F := F))
  | n + 1, h => k0_pay3 (iblk m c 0 ⟨n + 1, h⟩) (iblk m c 1 ⟨n + 1, h⟩) (iblk m c 2 ⟨n + 1, h⟩) (iblk m c 3 ⟨n + 1, h⟩) (total c n (Nat.lt_of_succ_lt h))

/-- The scratch after point n, as the frame's recursion states it, is the running total. -/
theorem scratch_eq (c : Dev nD) : ∀ (n : ℕ) (h : n < cfg0.N), (outsAt0 m c n h).2 = total m c n h
  | 0, h => by
    rw [outsAt0_A m c ⟨0, h⟩ (Nat.zero_mod 32) (by dsimp only; omega)]
    dsimp only
    exact scratch_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) _ _ (iblk m c 0 ⟨0, h⟩) (iblk m c 1 ⟨0, h⟩) (iblk m c 2 ⟨0, h⟩) (iblk m c 3 ⟨0, h⟩)
  | n + 1, h => by
    have hN : cfg0.N = 32 := N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      refine (scratch_last (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show k0_pay3 _ _ _ _ (outsAt0 m c n _).2 = k0_pay3 _ _ _ _ (total m c n _)
      rw [scratch_eq c n]
    · rw [outsAt0_B m c ⟨n + 1, h⟩ h0 h1]
      dsimp only
      refine (scratch_middle (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) _ _ (iblk m c 0 ⟨n + 1, h⟩) (iblk m c 1 ⟨n + 1, h⟩) (iblk m c 2 ⟨n + 1, h⟩) (iblk m c 3 ⟨n + 1, h⟩) _).trans ?_
      show k0_pay3 _ _ _ _ (outsAt0 m c n _).2 = k0_pay3 _ _ _ _ (total m c n _)
      rw [scratch_eq c n]

/-- The last grid point. -/
abbrev lastPt : Fin cfg0.N := ⟨31, by decide⟩

/-- What the result array holds after the run: the scaled total after the last block. -/
abbrev result (c : Dev nD) : Buf (Elt F) ((c : Thread nD τ).loc main_v0) :=
  k0_pay1 (total m c 31 lastPt.isLt)

/-- The one write-back, after the last block, writes the scaled total; the block is the whole one-element array. -/
theorem flushed_eq (c : Dev nD) (t : Fin cfg0.N) (hf : (cfg0.win 4).flush t = true) :
    (dats m 0 c).flushed 4 t = ((cfg0.win 4).blk t).view.read (Elt F) (result m c) := by
  have hN : cfg0.N = 32 := N_0
  have h31 : t.val = 31 := by have := (flush0_4 t).mp hf; have := t.isLt; omega
  obtain rfl : t = lastPt := Fin.ext h31
  show (cfg0.win 4).cut (grid0.coords lastPt) ((dats m 0 c).after 4 lastPt) = _
  rw [after0_4, outsAt0_C m c lastPt (by decide) (by decide)]
  dsimp only
  have hz' : (fun a => win0_4.index lastPt a * main_v0.ty.shape.size a) = fun _ => 0 := funext fun a => by fin_cases a <;> decide
  refine Eq.trans ?_ (Memref.read_access_unit_zero (Elt F) main_v0 hz' (fun a => by rw [congrFun hz' a]; simp) (result m c)).symm
  refine (out_last (F := F) c (grid0.coords lastPt) (ms0_0 lastPt) (hs0_0 lastPt) (ms0_1 lastPt) (hs0_1 lastPt) (ms0_2 lastPt) (hs0_2 lastPt) (ms0_3 lastPt) (hs0_3 lastPt) (ms0_4 lastPt) (hs0_4 lastPt) scM0_0 (Memref.isWhole_whole _) _ _ (iblk m c 0 lastPt) (iblk m c 1 lastPt) (iblk m c 2 lastPt) (iblk m c 3 lastPt) _).trans ?_
  show k0_pay1 (k0_pay3 _ _ _ _ (outsAt0 m c 30 _).2) = k0_pay1 (k0_pay3 _ _ _ _ (total m c 30 _))
  rw [scratch_eq m c 30]

/-- A [1, 1] array has one index. -/
theorem idx11_eq (i j : S1x1.Idx) : i = j := by
  funext a
  apply Fin.ext
  match a with
  | ⟨0, _⟩ => have h1 : (i 0).val < 1 := (i 0).isLt; have h2 : (j 0).val < 1 := (j 0).isLt; show (i 0).val = (j 0).val; omega
  | ⟨1, _⟩ => have h1 : (i 1).val < 1 := (i 1).isLt; have h2 : (j 1).val < 1 := (j 1).isLt; show (i 1).val = (j 1).val; omega

/-- So the result array ends holding the scaled total: its only index lies in the block the last point writes back. -/
theorem final_result (c : Dev nD) : (dats m 0 c).arrAt 4 cfg0.N = result m c :=
  (dats m 0 c).arrAt_eq_of_cover 4 (result m c) (flushed_eq m c) fun i =>
    ⟨lastPt, (flush0_4 lastPt).mpr rfl, by
      have e : i = ((cfg0.win 4).blk lastPt).view.emb (i : S1x1.Idx) := idx11_eq _ _
      rw [e]
      exact View.emb_mem_set _ _⟩

/-- The program's value: the result array recast from [1, 1] to a scalar. -/
abbrev value (c : Dev nD) : Buf (Elt F) ((c : Thread nD τ).loc main_v1) :=
  shapeCast S_ (result m c) shapeCasts_S1x1_S_

/-- The one host operation after the region recasts the result array. -/
theorem tail_eq (c : Dev nD) :
    Pipeline.afterTail₀ cfgs (dats m) 0 (V0 m) [hostOps1] c main_v1 = value m c := by
  unfold Pipeline.afterTail₀
  show StableHlo.after hostOps1 _ (Proc.devRef .tc main_v1) = _
  after_results
  have hw := (Pipeline.withArrays_arr spec0 launch0.win.arr_inj c (V0 m c) (fun w => (dats m 0 c).arrAt w (cfgs 0).N) 4).trans
    (final_result m c)
  exact congrArg (fun A : Buf (Elt F) ((c : Thread nD τ).loc main_v0) =>
    (shapeCast S_ A shapeCasts_S1x1_S_ : Buf (Elt F) ((c : Thread nD τ).loc main_v1))) hw

/-- The run, read back: every execution ends with the program's value in the result buffer and the four arguments
    as they were. -/
theorem run : θ_run defs (onTc (τ := τ) (main (F := F))) ⟨m, fun _ => 0, ρ⟩ fun r => ∀ c : Dev nD,
      r.2.mem ((c.tc : Thread nD τ).loc main_v1) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KL
end
-- ==== Proof.Spec.lean ====
/-
  The mathematics of the diagonal-covariance KL mean, on the extended reals, with no program in sight.

  For four [B, N] arrays mu1, mu2, var1, var2 (B = 16384 rows of N = 1024 lanes) the quantity is
      mean over rows R of   (1/2) · ( Σ_l (log var2 − log var1) − N + Σ_l var1 / var2 + Σ_l (mu2 − mu1)² / var2 ).
  One side computes it as ONE sum over the B rows divided by B. The other side walks the rows in 32 consecutive
  blocks of 512, adds each block's sum of row terms to a running total that starts at zero, and multiplies the total
  by 2⁻¹⁴ at the end. Three facts make them equal:
    • B = 16384 = 2¹⁴, so multiplying by the dyadic 2⁻¹⁴ IS dividing by B, on every extended real (infinities included);
    • row 512·t + r of the array is row r of block t, and (t, r) ↦ 512·t + r is a bijection of 32 × 512 onto B, so
      the blockwise double sum is the sum over all rows (addition of extended reals is commutative and associative);
    • a running total  z, z + g 0, (z + g 0) + g 1, …  after the last block is z + Σ_t g t.
  No finiteness of the inputs is used anywhere.
-/
import Idealize.ShloMosaic.PureOps.Ideal
import Idealize.ShloMosaic.PureOps.Ideal.Laws

noncomputable section

namespace Cert.KLMean

open Idealize.ShloMosaic
open scoped BigOperators

/-- The binary word 0x38800000 is the dyadic 2⁻¹⁴ = 1/16384 exactly. -/
theorem ofBits_inv_rows : Ideal.ofBits .f32 0x38800000#32 = ((1 / 16384 : ℝ) : EReal) := by
  simp [Ideal.ofBits, Ideal.ieee, -EReal.coe_mul]; norm_num

/-- The binary word 0x46800000 is the integer 16384 = 2¹⁴ exactly. -/
theorem ofBits_rows : Ideal.ofBits .f32 0x46800000#32 = ((16384 : ℝ) : EReal) := by
  simp [Ideal.ofBits, Ideal.ieee, -EReal.coe_mul]; norm_num

/-- Multiplying by 2⁻¹⁴ is dividing by 2¹⁴, at every extended real. -/
theorem scale_eq_div (x : EReal) :
    x * Ideal.ofBits .f32 0x38800000#32 = Ideal.div x (Ideal.ofBits .f32 0x46800000#32) := by
  rw [ofBits_inv_rows, ofBits_rows, Ideal.div_coe (by norm_num : (16384 : ℝ) ≠ 0)]

/-- One row's term: half of  Σ_l (log q − log p) − 1024 + Σ_l p / q + Σ_l (b − a)² / q,  for the row's four lane
    vectors a = mu1, b = mu2, p = var1, q = var2. The words 0x3F000000 and 0x44800000 are 1/2 and 1024; both sides
    carry the same words, so their values are never needed. -/
def rowTerm (a b p q : Fin 1024 → EReal) : EReal :=
  Ideal.ofBits .f32 0x3F000000#32 *
    ((((∑ l : Fin 1024, (Ideal.log (q l) - Ideal.log (p l))) - Ideal.ofBits .f32 0x44800000#32)
        + ∑ l : Fin 1024, Ideal.div (p l) (q l))
      + ∑ l : Fin 1024, Ideal.div ((b l - a l) * (b l - a l)) (q l))

/-- Row r of block t is row 512·t + r of the whole. -/
def rowOf (t : Fin 32) (r : Fin 512) : Fin 16384 :=
  ⟨r.val + 512 * t.val, by have := t.isLt; have := r.isLt; omega⟩

/-- The blockwise double sum is the sum over all rows. -/
theorem sum_blocks (f : Fin 16384 → EReal) :
    ∑ t : Fin 32, ∑ r : Fin 512, f (rowOf t r) = ∑ R : Fin 16384, f R := by
  rw [← Fintype.sum_prod_type' (f := fun (t : Fin 32) (r : Fin 512) => f (rowOf t r))]
  exact Fintype.sum_equiv (finProdFinEquiv (m := 32) (n := 512)) _ _ (fun x => rfl)

/-- A running total that starts at z + g 0 and adds g (n+1) at step n + 1 holds, after step n, z plus the sum of the
    g's up to n; after the last of 32 steps, z plus the whole sum. -/
theorem running_total (g : Fin 32 → EReal) (z : EReal) (A : (n : ℕ) → n < 32 → EReal)
    (h0 : ∀ h, A 0 h = z + g ⟨0, h⟩)
    (hs : ∀ n (h : n + 1 < 32), A (n + 1) h = A n (Nat.lt_of_succ_lt h) + g ⟨n + 1, h⟩) :
    ∀ h, A 31 h = z + ∑ t : Fin 32, g t := by
  have key : ∀ n (h : n < 32), A n h = z + ∑ t ∈ Finset.range (n + 1), (if ht : t < 32 then g ⟨t, ht⟩ else 0) := by
    intro n
    induction n with
    | zero => intro h; rw [h0 h, Finset.sum_range_one, dif_pos h]
    | succ n ih =>
      intro h
      rw [hs n h, ih (Nat.lt_of_succ_lt h), Finset.sum_range_succ _ (n + 1), dif_pos h, add_assoc]
  intro h
  rw [key 31 h, Finset.sum_range]
  exact congrArg (z + ·) (Finset.sum_congr rfl fun t _ => dif_pos t.isLt)

end Cert.KLMean

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KernelRead.lean ====
/-
  The blockwise program's value on the extended reals.

  Read at its one index, an accumulation step is  previous total + Σ over the block's 512 rows of the row term  of the
  four blocks' rows; the cleared total is 0; the final scaling multiplies by the word for 2⁻¹⁴. Entry (r, l) of block t
  of an argument is entry (512·t + r, l) of the argument. So the running total after the last of the 32 blocks is
  0 + Σ_t Σ_r (row term of row 512·t + r), which is the sum of the row terms over all 16384 rows, and the program's
  value is that sum times 2⁻¹⁴.
-/
import proofs.«148107_j24172075941906_1_alg».proof.Proof.Chain
import proofs.«148107_j24172075941906_1_alg».proof.Proof.Spec
import proofs.«148107_j24172075941906_1_alg».proof.Proof.LibKeepdims
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.KL

open Cert.KernelIdeal Cert.KernelIdeal.Gen Cert.KLMean

/-- On the extended reals, the sum along axis 0 of an [a, 1] column read at its one index: the sum of the column. -/
theorem multiReduction_add_col_apply {a : ℕ} (src : FVec Ideal ⟨2, ![a, 1]⟩ .f32) (acc : BitVec 32)
    (h : (⟨2, ![a, 1]⟩ : Shape).Reduces [0] ⟨1, ![1]⟩) (hφ : FKind.Formats FTy.f32)
    (hacc : acc = FKind.add.neutral .f32 hφ) (u : Fin 1) :
    multiReduction .add [0] ⟨1, ![1]⟩ src acc h hφ hacc (ix1 u) = ∑ k : Fin a, src (ix2 k u) := by
  refine (Ideal.multiReduction_add_single src acc h hφ hacc (ix1 u)).trans ?_
  refine Finset.sum_congr rfl fun k _ => congrArg src (funext fun ax => Fin.ext ?_)
  match ax with
  | ⟨0, _⟩ => rfl
  | ⟨1, _⟩ => rfl

/-- One accumulation step at its one index: the previous total plus the sum, over the block's 512 rows, of the row
    terms of the four blocks' rows. (The three lane sums of a row start from zero inside the reduction, so no zero
    appears; the casts between [512], [512, 1], [1] and [1, 1] only rename indices.) -/
theorem step_apply (x0 x1 x2 x3 : FVec Ideal S512x1024 .f32) (acc : FVec Ideal S1x1 .f32) :
    k0_pay3 x0 x1 x2 x3 acc (ix2 (0 : Fin 1) (0 : Fin 1))
      = acc (ix2 (0 : Fin 1) (0 : Fin 1)) + ∑ r : Fin 512, rowTerm (fun l => x0 (ix2 r l)) (fun l => x1 (ix2 r l))
          (fun l => x2 (ix2 r l)) (fun l => x3 (ix2 r l)) := by
  unfold k0_pay3
  dsimp only
  refine (congrFun (shapeCast_self _ _) _).trans ?_
  refine (addf_apply _ _ _).trans (congrArg (acc (ix2 (0 : Fin 1) (0 : Fin 1)) + ·) ?_)
  refine (shapeCast_a_a1_apply _ _ (0 : Fin 1) (0 : Fin 1)).trans ?_
  refine (multiReduction_add_col_apply _ _ _ _ _ (0 : Fin 1)).trans ?_
  refine Finset.sum_congr rfl fun r _ => ?_
  refine (mulf_apply _ _ _).trans ?_
  unfold rowTerm
  refine congrArg (Ideal.ofBits .f32 0x3F000000#32 * ·) ?_
  refine (addf_apply _ _ _).trans ?_
  refine congrArg₂ (· + ·) ((addf_apply _ _ _).trans (congrArg₂ (· + ·) ((subf_apply _ _ _).trans
    (congrArg (· - Ideal.ofBits .f32 0x44800000#32) ?_)) ?_)) ?_
  · exact (shapeCast_a_a1_apply _ _ r (0 : Fin 1)).trans (multiReduction_add_rows_apply _ _ _ _ _ r)
  · exact (shapeCast_a_a1_apply _ _ r (0 : Fin 1)).trans (multiReduction_add_rows_apply _ _ _ _ _ r)
  · exact (shapeCast_a_a1_apply _ _ r (0 : Fin 1)).trans (multiReduction_add_rows_apply _ _ _ _ _ r)

/-- A [1, 1] array recast to a scalar reads, at the scalar's one index, the array's one entry. -/
theorem shapeCast_11_scalar_apply {α : Type} (x : (⟨2, ![1, 1]⟩ : Shape).Idx → α)
    (h : (⟨2, ![1, 1]⟩ : Shape).ShapeCasts ⟨0, ![]⟩) :
    shapeCast ⟨0, ![]⟩ x h ix0 = x (ix2 (0 : Fin 1) (0 : Fin 1)) :=
  shapeCast_apply x h _ _ (by
    have h1 := ((⟨0, ![]⟩ : Shape).rowMajor ix0).isLt
    have h2 : (⟨0, ![]⟩ : Shape).numel = 1 := by decide
    rw [Shape.rowMajor_val_two]
    show (0 : ℕ) * 1 + 0 = _
    omega)

/-- The final scaling at its one index: the total times the word 0x38800000. -/
theorem scale_apply (v : FVec Ideal S1x1 .f32) :
    k0_pay1 v (ix2 (0 : Fin 1) (0 : Fin 1)) = v (ix2 (0 : Fin 1) (0 : Fin 1)) * Ideal.ofBits .f32 0x38800000#32 := rfl

/-- The cleared total is zero. -/
theorem cleared_apply : (k0_pay2 (F := Ideal)) (ix2 (0 : Fin 1) (0 : Fin 1)) = 0 := by
  unfold k0_pay2
  refine (congrFun (shapeCast_self _ _) _).trans ?_
  exact Ideal.ofBits_zero_f32

section Arrays

variable (m : (ℓ : Loc nD τ sig) → Buf (Elt Ideal) ℓ)

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Input block 0 at point t, as a [512, 1024] array. -/
abbrev blk0 (c : Dev nD) (t : Fin cfg0.N) : Vec Ideal S512x1024 .f32 := iblk m c 0 t

/-- Entry (r, l) of block t of argument 0 is entry (512·t + r, l) of the argument. -/
theorem blk0_apply (c : Dev nD) (t : Fin cfg0.N) (r : Fin 512) (l : Fin 1024) :
    blk0 m c t (ix2 r l) = m ((c : Thread nD τ).loc main_arg0) (ix2 (rowOf (Fin.cast N_0 t) r) l) := by
  show V m c main_arg0 (((cfg0.win 0).blk t).view.emb (ix2 r l)) = V m c main_arg0 (ix2 (rowOf (Fin.cast N_0 t) r) l)
  refine congrArg (V m c main_arg0) (funext fun a => Fin.ext ?_)
  match a with
  | ⟨0, _⟩ =>
    show win0_0.index t 0 * 512 + 1 * r.val = r.val + 512 * t.val
    rw [(idx_facts0 t).1]; omega
  | ⟨1, _⟩ =>
    show win0_0.index t 1 * 1024 + 1 * l.val = l.val
    rw [(idx_facts0 t).2]; omega

theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Input block 1 at point t, as a [512, 1024] array. -/
abbrev blk1 (c : Dev nD) (t : Fin cfg0.N) : Vec Ideal S512x1024 .f32 := iblk m c 1 t

/-- Entry (r, l) of block t of argument 1 is entry (512·t + r, l) of the argument. -/
theorem blk1_apply (c : Dev nD) (t : Fin cfg0.N) (r : Fin 512) (l : Fin 1024) :
    blk1 m c t (ix2 r l) = m ((c : Thread nD τ).loc main_arg1) (ix2 (rowOf (Fin.cast N_0 t) r) l) := by
  show V m c main_arg1 (((cfg0.win 1).blk t).view.emb (ix2 r l)) = V m c main_arg1 (ix2 (rowOf (Fin.cast N_0 t) r) l)
  refine congrArg (V m c main_arg1) (funext fun a => Fin.ext ?_)
  match a with
  | ⟨0, _⟩ =>
    show win0_1.index t 0 * 512 + 1 * r.val = r.val + 512 * t.val
    rw [(idx_facts1 t).1]; omega
  | ⟨1, _⟩ =>
    show win0_1.index t 1 * 1024 + 1 * l.val = l.val
    rw [(idx_facts1 t).2]; omega

theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Input block 2 at point t, as a [512, 1024] array. -/
abbrev blk2 (c : Dev nD) (t : Fin cfg0.N) : Vec Ideal S512x1024 .f32 := iblk m c 2 t

/-- Entry (r, l) of block t of argument 2 is entry (512·t + r, l) of the argument. -/
theorem blk2_apply (c : Dev nD) (t : Fin cfg0.N) (r : Fin 512) (l : Fin 1024) :
    blk2 m c t (ix2 r l) = m ((c : Thread nD τ).loc main_arg2) (ix2 (rowOf (Fin.cast N_0 t) r) l) := by
  show V m c main_arg2 (((cfg0.win 2).blk t).view.emb (ix2 r l)) = V m c main_arg2 (ix2 (rowOf (Fin.cast N_0 t) r) l)
  refine congrArg (V m c main_arg2) (funext fun a => Fin.ext ?_)
  match a with
  | ⟨0, _⟩ =>
    show win0_2.index t 0 * 512 + 1 * r.val = r.val + 512 * t.val
    rw [(idx_facts2 t).1]; omega
  | ⟨1, _⟩ =>
    show win0_2.index t 1 * 1024 + 1 * l.val = l.val
    rw [(idx_facts2 t).2]; omega

theorem idx_facts3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)

/-- Input block 3 at point t, as a [512, 1024] array. -/
abbrev blk3 (c : Dev nD) (t : Fin cfg0.N) : Vec Ideal S512x1024 .f32 := iblk m c 3 t

/-- Entry (r, l) of block t of argument 3 is entry (512·t + r, l) of the argument. -/
theorem blk3_apply (c : Dev nD) (t : Fin cfg0.N) (r : Fin 512) (l : Fin 1024) :
    blk3 m c t (ix2 r l) = m ((c : Thread nD τ).loc main_arg3) (ix2 (rowOf (Fin.cast N_0 t) r) l) := by
  show V m c main_arg3 (((cfg0.win 3).blk t).view.emb (ix2 r l)) = V m c main_arg3 (ix2 (rowOf (Fin.cast N_0 t) r) l)
  refine congrArg (V m c main_arg3) (funext fun a => Fin.ext ?_)
  match a with
  | ⟨0, _⟩ =>
    show win0_3.index t 0 * 512 + 1 * r.val = r.val + 512 * t.val
    rw [(idx_facts3 t).1]; omega
  | ⟨1, _⟩ =>
    show win0_3.index t 1 * 1024 + 1 * l.val = l.val
    rw [(idx_facts3 t).2]; omega

/-- The row term of row R of the four argument arrays. -/
def argRow (c : Dev nD) (R : Fin 16384) : EReal :=
  rowTerm (fun l => m ((c : Thread nD τ).loc main_arg0) (ix2 R l)) (fun l => m ((c : Thread nD τ).loc main_arg1) (ix2 R l))
    (fun l => m ((c : Thread nD τ).loc main_arg2) (ix2 R l)) (fun l => m ((c : Thread nD τ).loc main_arg3) (ix2 R l))

/-- A block's sum of row terms is the sum of the arguments' row terms over the block's 512 rows. -/
theorem blockSum_eq (c : Dev nD) (t : Fin cfg0.N) :
    (∑ r : Fin 512, rowTerm (fun l => blk0 m c t (ix2 r l)) (fun l => blk1 m c t (ix2 r l))
        (fun l => blk2 m c t (ix2 r l)) (fun l => blk3 m c t (ix2 r l)))
      = ∑ r : Fin 512, argRow m c (rowOf (Fin.cast N_0 t) r) :=
  Finset.sum_congr rfl fun r _ => by
    unfold argRow
    simp only [blk0_apply, blk1_apply, blk2_apply, blk3_apply]

/-- The running total after the last block, at its one index: the sum over all 16384 rows of the row terms. -/
theorem total_apply (c : Dev nD) :
    total m c 31 lastPt.isLt (ix2 (0 : Fin 1) (0 : Fin 1)) = ∑ R : Fin 16384, argRow m c R := by
  have hN : cfg0.N = 32 := N_0
  have key := running_total (fun t : Fin 32 => ∑ r : Fin 512, argRow m c (rowOf t r)) 0
    (fun n h => total m c n (lt_of_lt_of_eq h hN.symm) (ix2 (0 : Fin 1) (0 : Fin 1)))
    (fun h => by
      show k0_pay3 (blk0 m c ⟨0, _⟩) (blk1 m c ⟨0, _⟩) (blk2 m c ⟨0, _⟩) (blk3 m c ⟨0, _⟩) (k0_pay2 (F := Ideal)) (ix2 (0 : Fin 1) (0 : Fin 1)) = _
      rw [step_apply, cleared_apply, blockSum_eq]
      rfl)
    (fun n h => by
      show k0_pay3 (blk0 m c ⟨n + 1, _⟩) (blk1 m c ⟨n + 1, _⟩) (blk2 m c ⟨n + 1, _⟩) (blk3 m c ⟨n + 1, _⟩)
        (total m c n _) (ix2 (0 : Fin 1) (0 : Fin 1)) = _
      rw [step_apply, blockSum_eq]
      rfl)
    (by decide)
  exact key.trans ((zero_add _).trans (sum_blocks (argRow m c)))

/-- THE KERNEL'S VALUE at the extended reals: the sum over all rows of the row terms, times 2⁻¹⁴. -/
theorem value_apply (c : Dev nD) :
    value m c ix0 = (∑ R : Fin 16384, argRow m c R) * Ideal.ofBits .f32 0x38800000#32 := by
  refine (shapeCast_11_scalar_apply _ _).trans ?_
  refine (scale_apply _).trans ?_
  rw [total_apply]

end Arrays

end Cert.KernelIdeal.KL
end
-- ==== Proof.RefValue.lean ====
/-
  The one-pass program's value on the extended reals.

  Its last stage divides, by the word for 16384, the sum over all rows (started from a zero) of half of
  ( Σ_l (log var2 − log var1) − 1024 + Σ_l var1 / var2 + Σ_l (mu2 − mu1)² / var2 ), each lane sum started from a
  zero. Reading the stages one at a time, outermost first, and dropping the zeros, row R's summand is exactly the
  row term of row R of the four arguments.
-/
import proofs.«148107_j24172075941906_1_alg».proof.Proof.Gen.ReferenceIdeal.Read
import proofs.«148107_j24172075941906_1_alg».proof.Proof.Spec
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.ReferenceIdeal.KL

open Cert.ReferenceIdeal Cert.ReferenceIdeal.Gen Cert.ReferenceIdeal.Read Cert.KLMean

/-- The indices of a rank-1 array of extent n are the numbers below n. -/
def idxEquiv1 {n : ℕ} : (⟨1, ![n]⟩ : Shape).Idx ≃ Fin n where
  toFun j := j 0
  invFun a := ix1 a
  left_inv j := (eq_ix1 j).symm
  right_inv a := rfl

/-- A sum over the indices of a rank-1 array is the sum over its coordinates. -/
theorem sum_idx1 {M : Type*} [AddCommMonoid M] {n : ℕ} (f : (⟨1, ![n]⟩ : Shape).Idx → M) :
    ∑ j, f j = ∑ a : Fin n, f (ix1 a) :=
  (Equiv.sum_comp idxEquiv1.symm f).symm

/-- The lane index of row R, lane k, as the lane sums spell it. -/
theorem lane_idx3 (R : Fin 16384) (k : Fin 1024) : idx_main_v3 (ix1 R) k = ix2 R k :=
  funext fun a => Fin.ext (by match a with | ⟨0, _⟩ => rfl | ⟨1, _⟩ => rfl)
theorem lane_idx5 (R : Fin 16384) (k : Fin 1024) : idx_main_v5 (ix1 R) k = ix2 R k :=
  funext fun a => Fin.ext (by match a with | ⟨0, _⟩ => rfl | ⟨1, _⟩ => rfl)
theorem lane_idx9 (R : Fin 16384) (k : Fin 1024) : idx_main_v9 (ix1 R) k = ix2 R k :=
  funext fun a => Fin.ext (by match a with | ⟨0, _⟩ => rfl | ⟨1, _⟩ => rfl)

variable (x0 x1 x2 x3 : (⟨S16384x1024, .f32⟩ : BufTy).Contents (Elt Ideal))

/-- Row R's summand of the outer sum is the row term of row R. -/
theorem row_apply (R : Fin 16384) :
    val_main_v15 (F := Ideal) x0 x1 x2 x3 (ix1 R)
      = rowTerm (fun l => x0 (ix2 R l)) (fun l => x1 (ix2 R l)) (fun l => x2 (ix2 R l)) (fun l => x3 (ix2 R l)) := by
  rw [val_main_v15_apply, val_main_v14_apply, val_main_cst_3_apply, val_main_v13_apply, val_main_v12_apply,
    val_main_v11_apply, val_main_v10_apply, val_main_cst_2_apply, val_main_v3_apply, val_main_v5_apply,
    val_main_v9_apply, val_main_cst_apply, val_main_cst_0_apply, val_main_cst_1_apply]
  simp only [lane_idx3, lane_idx5, lane_idx9, val_main_v2_apply, val_main_v0_apply, val_main_v1_apply,
    val_main_v4_apply, val_main_v8_apply, val_main_v7_apply, val_main_v6_apply,
    Ideal.ofBits_def, Ideal.mulf_def, Ideal.addf_def, Ideal.subf_def, Ideal.hostDivf_def, Ideal.hostUnary_log_def,
    Ideal.ofBits_zero_f32, zero_add]
  rfl

/-- THE REFERENCE'S VALUE at the extended reals: the sum over all rows of the row terms, divided by 16384. -/
theorem value_apply :
    val_main_v17 (F := Ideal) x0 x1 x2 x3 ix0
      = Ideal.div (∑ R : Fin 16384, rowTerm (fun l => x0 (ix2 R l)) (fun l => x1 (ix2 R l)) (fun l => x2 (ix2 R l))
          (fun l => x3 (ix2 R l))) (Ideal.ofBits .f32 0x46800000#32) := by
  rw [val_main_v17_apply, val_main_v16_apply, val_main_cst_4_apply, val_main_cst_5_apply, sum_idx1]
  simp only [row_apply, Ideal.hostDivf_def, Ideal.ofBits_def, Ideal.ofBits_zero_f32, zero_add]

end Cert.ReferenceIdeal.KL
end
-- ==== Proof.lean ====
/-
  The mean over 16384 rows of the diagonal-covariance KL row term, computed two ways, is one extended real.

  The blockwise program walks the rows in 32 blocks of 512, keeps a running total that starts at zero, and multiplies
  the final total by 2⁻¹⁴; its value is (Σ over all rows of the row term) · 2⁻¹⁴. The one-pass program sums the row
  terms of all rows and divides by 16384; its value is (Σ over all rows of the row term) / 16384. Since
  16384 = 2¹⁴, multiplying by 2⁻¹⁴ is dividing by 16384 at every extended real, so the two values agree on arguments
  that agree. Neither program writes its arguments, and nothing about the inputs' finiteness is needed.
-/
import proofs.«148107_j24172075941906_1_alg».proof.Defs
import proofs.«148107_j24172075941906_1_alg».proof.Proof.Gen.Kernel
import proofs.«148107_j24172075941906_1_alg».proof.Proof.Gen.Kernel.Frame
import proofs.«148107_j24172075941906_1_alg».proof.Proof.Gen.KernelIdeal
import proofs.«148107_j24172075941906_1_alg».proof.Proof.Gen.KernelIdeal.Frame
import proofs.«148107_j24172075941906_1_alg».proof.Proof.Gen.ReferenceIdeal
import proofs.«148107_j24172075941906_1_alg».proof.Proof.Gen.ReferenceIdeal.Run
import proofs.«148107_j24172075941906_1_alg».proof.Proof.Gen.Pre_finite_inputs
import proofs.«148107_j24172075941906_1_alg».proof.Proof.KernelRead
import proofs.«148107_j24172075941906_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level blockwise program terminates without a fault and leaves its arguments alone. -/
theorem frame_kernel [Cert.Kernel.Facts] [Cert.Pre_finite_inputs.Facts] : Cert.frame_Kernel :=
  fun m ρ _ => Cert.Kernel.Gen.frame m ρ

/-- So does the blockwise program read on the extended reals, -/
theorem frame_kernelIdeal [Cert.KernelIdeal.Facts] [Cert.Pre_finite_inputs.Facts] : Cert.frame_KernelIdeal :=
  fun m ρ _ => Cert.KernelIdeal.Gen.frame m ρ

/-- and the one-pass program: its run with the value dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- On arguments that agree, (Σ_R row term) · 2⁻¹⁴ and (Σ_R row term) / 16384 are the same extended real. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KL.value m c, Cert.KernelIdeal.KL.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq]
  funext i
  obtain rfl := eq_ix0 i
  rw [Cert.ReferenceIdeal.KL.value_apply, (hagree c).1, (hagree c).2.1, (hagree c).2.2.1, (hagree c).2.2.2]
  refine Eq.trans ?_ (Cert.KernelIdeal.KL.value_apply m c).symm
  exact (Cert.KLMean.scale_eq_div _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
